-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131x131 : Shape := ⟨2, ![131, 131]⟩
abbrev S131x512 : Shape := ⟨2, ![131, 512]⟩
abbrev S512x512 : Shape := ⟨2, ![512, 512]⟩
abbrev S_ : Shape := ⟨0, ![]⟩

class Facts : Prop where
  bcast_S_S131x131 : S_.BroadcastsInDim S131x131 (![] : Fin 0 → Fin S131x131.rank)
  reducesTo_S131x131_S_d0_1 : S131x131.ReducesTo [0, 1] S_
  h_S_ : 0 < S_.numel
  bcast_S_S131x512 : S_.BroadcastsInDim S131x512 (![] : Fin 0 → Fin S131x512.rank)
  reducesTo_S131x512_S_d0_1 : S131x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S131x131 .f32) (main_arg1 : FVec F S131x512 .f32) (main_arg2 : FVec F S131x512 .f32) (main_arg3 : FVec F S512x512 .f32) (main_arg4 : FVec F S512x512 .f32) : IVec S_ 1 :=
  let main_v0 : FVec F S131x131 .f32 := Host.absf main_arg0
  let main_cst : FVec F S_ .f32 := constant S_ .f32 0x7F800000#32
  let main_v1 : FVec F S131x131 .f32 := broadcastInDim S131x131 ![] bcast_S_S131x131 main_cst
  let main_v2 : IVec S131x131 1 := cmpf .olt main_v0 main_v1
  let main_c : IVec S_ 1 := constantI S_ 1 1#1
  let main_v3 : IVec S_ 1 := (fun x v => Host.reduce IntOp.andi x v reducesTo_S131x131_S_d0_1 h_S_) main_v2 main_c
  let main_v4 : FVec F S131x512 .f32 := Host.absf main_arg1
  let main_cst_0 : FVec F S_ .f32 := constant S_ .f32 0x7F800000#32
  let main_v5 : FVec F S131x512 .f32 := broadcastInDim S131x512 ![] bcast_S_S131x512 main_cst_0
  let main_v6 : IVec S131x512 1 := cmpf .olt main_v4 main_v5
  let main_c_1 : IVec S_ 1 := constantI S_ 1 1#1
  let main_v7 : IVec S_ 1 := (fun x v => Host.reduce IntOp.andi x v reducesTo_S131x512_S_d0_1 h_S_) main_v6 main_c_1
  let main_v8 : IVec S_ 1 := andi main_v3 main_v7
  let main_v9 : FVec F S131x512 .f32 := Host.absf main_arg2
  let main_cst_2 : FVec F S_ .f32 := constant S_ .f32 0x7F800000#32
  let main_v10 : FVec F S131x512 .f32 := broadcastInDim S131x512 ![] bcast_S_S131x512 main_cst_2
  let main_v11 : IVec S131x512 1 := cmpf .olt main_v9 main_v10
  let main_c_3 : IVec S_ 1 := constantI S_ 1 1#1
  let main_v12 : IVec S_ 1 := (fun x v => Host.reduce IntOp.andi x v reducesTo_S131x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S131x131 : Shape := ⟨2, ![131, 131]⟩
abbrev S131x512 : Shape := ⟨2, ![131, 512]⟩
abbrev S512x512 : Shape := ⟨2, ![512, 512]⟩
abbrev S2x131x512 : Shape := ⟨3, ![2, 131, 512]⟩
abbrev S1x131x512 : Shape := ⟨3, ![1, 131, 512]⟩

abbrev nBuf : Space → Nat
  | .hbm => 8
  | .vmem => 8
  | .smem => 0
  | _ => 0

abbrev bufTy : (tb : Table) → Fin (tcTables nBuf tb) → BufTy
  | .hbm, ⟨0, _⟩ => ⟨S131x131, .f32⟩
  | .hbm, ⟨1, _⟩ => ⟨S131x512, .f32⟩
  | .hbm, ⟨2, _⟩ => ⟨S131x512, .f32⟩
  | .hbm, ⟨3, _⟩ => ⟨S512x512, .f32⟩
  | .hbm, ⟨4, _⟩ => ⟨S512x512, .f32⟩
  | .hbm, ⟨5, _⟩ => ⟨S131x512, .f32⟩
  | .hbm, ⟨6, _⟩ => ⟨S2x131x512, .f32⟩
  | .hbm, ⟨7, _⟩ => ⟨S2x131x512, .f32⟩
  | .local _ .vmem, ⟨0, _⟩ => ⟨S131x131, .f32⟩
  | .local _ .vmem, ⟨1, _⟩ => ⟨S131x512, .f32⟩
  | .local _ .vmem, ⟨2, _⟩ => ⟨S131x512, .f32⟩
  | .local _ .vmem, ⟨3, _⟩ => ⟨S512x512, .f32⟩
  | .local _ .vmem, ⟨4, _⟩ => ⟨S512x512, .f32⟩
  | .local _ .vmem, ⟨5, _⟩ => ⟨S131x512, .f32⟩
  | .local _ .vmem, ⟨6, _⟩ => ⟨S2x131x512, .f32⟩
  | .local _ .vmem, ⟨7, _⟩ => ⟨S2x131x512, .f32⟩
  | _, _ => ⟨S131x131, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S131x131 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S131x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S131x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S131x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x131x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x131x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  inb_S131x512_S131x512_0_0 : ∀ a, (![0, 0] : Fin 2 → Nat) a + S131x512.size a ≤ S131x512.size a
  h_S131x512 : 0 < S131x512.numel
  inb_S131x131_S131x131_0_0 : ∀ a, (![0, 0] : Fin 2 → Nat) a + S131x131.size a ≤ S131x131.size a
  h_S131x131 : 0 < S131x131.numel
  inb_S512x512_S512x512_0_0 : ∀ a, (![0, 0] : Fin 2 → Nat) a + S512x512.size a ≤ S512x512.size a
  h_S512x512 : 0 < S512x512.numel
  inb_S2x131x512_S1x131x512_0_0_0 : ∀ a, (![0, 0, 0] : Fin 3 → Nat) a + S1x131x512.size a ≤ S2x131x512.size a
  h_S1x131x512 : 0 < S1x131x512.numel
  shapeCasts_S1x131x512_S131x512 : S1x131x512.ShapeCasts S131x512
  shapeCasts_S131x512_S1x131x512 : S131x512.ShapeCasts S1x131x512
  inb_S2x131x512_S1x131x512_1_0_0 : ∀ a, (![1, 0, 0] : Fin 3 → Nat) a + S1x131x512.size a ≤ S2x131x512.size a
  dot_S131x512_S512x512_S131x512_1_0_0_1_n_n_wf : DotDims.WF S131x512 S512x512 S131x512 [1] [0] [0] [1] [] []
  dot_S131x512_S131x512_S131x131_1_1_0_0_n_n_wf : DotDims.WF S131x512 S131x512 S131x131 [1] [1] [0] [0] [] []
  dot_S131x131_S131x512_S131x512_1_0_0_1_n_n_wf : DotDims.WF S131x131 S131x512 S131x512 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

def dot_S131x512_S512x512_S131x512_1_0_0_1_n_n : DotDims S131x512 S512x512 S131x512 where
  lhsContracting := [1]
  rhsContracting := [0]
  lhsNonContracting := [0]
  rhsNonContracting := [1]
  lhsBatch := []
  rhsBatch := []
  wf := dot_S131x512_S512x512_S131x512_1_0_0_1_n_n_wf
def dot_S131x512_S131x512_S131x131_1_1_0_0_n_n : DotDims S131x512 S131x512 S131x131 where
  lhsContracting := [1]
  rhsContracting := [1]
  lhsNonContracting := [0]
  rhsNonContracting := [0]
  lhsBatch := []
  rhsBatch := []
  wf := dot_S131x512_S131x512_S131x131_1_1_0_0_n_n_wf
def dot_S131x131_S131x512_S131x512_1_0_0_1_n_n : DotDims S131x131 S131x512 S131x512 where
  lhsContracting := [1]
  rhsContracting := [0]
  lhsNonContracting := [0]
  rhsNonContracting := [1]
  lhsBatch := []
  rhsBatch := []
  wf := dot_S131x131_S131x512_S131x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v0_0) true false (stage0_5 0) (sem0_5 0) (Memref.isWhole_whole _) (hstage0_5 0)

abbrev win0_6 : Pipeline.Window sig grid0 :=
  Pipeline.Window.whole (Memref.whole main_v0_1) true false (stage0_6 0) (sem0_6 0) (Memref.isWhole_whole _) (hstage0_6 0)

abbrev win0_7 : Pipeline.Window sig grid0 :=
  Pipeline.Window.whole (Memref.whole main_v0_2) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131x131 : Shape := ⟨2, ![131, 131]⟩
abbrev S131x512 : Shape := ⟨2, ![131, 512]⟩
abbrev S512x512 : Shape := ⟨2, ![512, 512]⟩
abbrev S512x131 : Shape := ⟨2, ![512, 131]⟩
abbrev S_ : Shape := ⟨0, ![]⟩
abbrev S1x131x512 : Shape := ⟨3, ![1, 131, 512]⟩
abbrev S2x131x512 : Shape := ⟨3, ![2, 131, 512]⟩

abbrev nBuf : Space → Nat
  | .hbm => 40
  | .vmem => 0
  | .smem => 0
  | _ => 0

abbrev bufTy : (tb : Table) → Fin (tcTables nBuf tb) → BufTy
  | .hbm, ⟨0, _⟩ => ⟨S131x131, .f32⟩
  | .hbm, ⟨1, _⟩ => ⟨S131x512, .f32⟩
  | .hbm, ⟨2, _⟩ => ⟨S131x512, .f32⟩
  | .hbm, ⟨3, _⟩ => ⟨S512x512, .f32⟩
  | .hbm, ⟨4, _⟩ => ⟨S512x512, .f32⟩
  | .hbm, ⟨5, _⟩ => ⟨S131x512, .f32⟩
  | .hbm, ⟨6, _⟩ => ⟨S131x512, .f32⟩
  | .hbm, ⟨7, _⟩ => ⟨S131x512, .f32⟩
  | .hbm, ⟨8, _⟩ => ⟨S131x512, .f32⟩
  | .hbm, ⟨9, _⟩ => ⟨S512x131, .f32⟩
  | .hbm, ⟨10, _⟩ => ⟨S512x512, .f32⟩
  | .hbm, ⟨11, _⟩ => ⟨S131x512, .f32⟩
  | .hbm, ⟨12, _⟩ => ⟨S512x131, .f32⟩
  | .hbm, ⟨13, _⟩ => ⟨S512x512, .f32⟩
  | .hbm, ⟨14, _⟩ => ⟨S131x512, .f32⟩
  | .hbm, ⟨15, _⟩ => ⟨S131x512, .f32⟩
  | .hbm, ⟨16, _⟩ => ⟨S131x512, .f32⟩
  | .hbm, ⟨17, _⟩ => ⟨S131x512, .f32⟩
  | .hbm, ⟨18, _⟩ => ⟨S512x131, .f32⟩
  | .hbm, ⟨19, _⟩ => ⟨S512x512, .f32⟩
  | .hbm, ⟨20, _⟩ => ⟨S131x512, .f32⟩
  | .hbm, ⟨21, _⟩ => ⟨S512x131, .f32⟩
  | .hbm, ⟨22, _⟩ => ⟨S512x512, .f32⟩
  | .hbm, ⟨23, _⟩ => ⟨S131x512, .f32⟩
  | .hbm, ⟨24, _⟩ => ⟨S131x512, .f32⟩
  | .hbm, ⟨25, _⟩ => ⟨S131x512, .f32⟩
  | .hbm, ⟨26, _⟩ => ⟨S_, .f32⟩
  | .hbm, ⟨27, _⟩ => ⟨S131x512, .f32⟩
  | .hbm, ⟨28, _⟩ => ⟨S131x512, .f32⟩
  | .hbm, ⟨29, _⟩ => ⟨S131x512, .f32⟩
  | .hbm, ⟨30, _⟩ => ⟨S131x512, .f32⟩
  | .hbm, ⟨31, _⟩ => ⟨S_, .f32⟩
  | .hbm, ⟨32, _⟩ => ⟨S131x512, .f32⟩
  | .hbm, ⟨33, _⟩ => ⟨S131x512, .f32⟩
  | .hbm, ⟨34, _⟩ => ⟨S1x131x512, .f32⟩
  | .hbm, ⟨35, _⟩ => ⟨S1x131x512, .f32⟩
  | .hbm, ⟨36, _⟩ => ⟨S2x131x512, .f32⟩
  | .hbm, ⟨37, _⟩ => ⟨S1x131x512, .f32⟩
  | .hbm, ⟨38, _⟩ => ⟨S1x131x512, .f32⟩
  | .hbm, ⟨39, _⟩ => ⟨S2x131x512, .f32⟩
  | _, _ => ⟨S131x131, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]

class Facts₀ : Prop where
  transposes_S131x512_S512x131_1_0 : S131x512.Transposes [1, 0] S512x131
  bcast_S_S131x512 : S_.BroadcastsInDim S131x512 (![] : Fin 0 → Fin S131x512.rank)
  bcast_S131x512_S1x131x512_1_2 : S131x512.BroadcastsInDim S1x131x512 (![1, 2] : Fin 2 → Fin S1x131x512.rank)
  concatenates_S1x131x512_S1x131x512_S2x131x512_d0 : Shape.Concatenates [S1x131x512, S1x131x512] S2x131x512 0
  dot_S131x512_S512x512_S131x512_1_0_0_1_n_n_wf : DotDims.WF S131x512 S512x512 S131x512 [1] [0] [0] [1] [] []
  dot_S131x131_S131x512_S131x512_1_0_0_1_n_n_wf : DotDims.WF S131x131 S131x512 S131x512 [1] [0] [0] [1] [] []
  dot_S512x131_S131x512_S512x512_1_0_0_1_n_n_wf : DotDims.WF S512x131 S131x512 S512x512 [1] [0] [0] [1] [] []

variable [Facts₀]

def dot_S131x512_S512x512_S131x512_1_0_0_1_n_n : DotDims S131x512 S512x512 S131x512 where
  lhsContracting := [1]
  rhsContracting := [0]
  lhsNonContracting := [0]
  rhsNonContracting := [1]
  lhsBatch := []
  rhsBatch := []
  wf := dot_S131x512_S512x512_S131x512_1_0_0_1_n_n_wf
def dot_S131x131_S131x512_S131x512_1_0_0_1_n_n : DotDims S131x131 S131x512 S131x512 where
  lhsContracting := [1]
  rhsContracting := [0]
  lhsNonContracting := [0]
  rhsNonContracting := [1]
  lhsBatch := []
  rhsBatch := []
  wf := dot_S131x131_S131x512_S131x512_1_0_0_1_n_n_wf
def dot_S512x131_S131x512_S512x512_1_0_0_1_n_n : DotDims S512x131 S131x512 S512x512 where
  lhsContracting := [1]
  rhsContracting := [0]
  lhsNonContracting := [0]
  rhsNonContracting := [1]
  lhsBatch := []
  rhsBatch := []
  wf := dot_S512x131_S131x512_S512x512_1_0_0_1_n_n_wf

class Facts : Prop extends Facts₀ where

variable [Facts]
-- ==== Proof.FiniteInputs.lean ====
import proofs.«173434_g20873541059240_cont_8to1_1272_4_alg».proof.Pre_finite_inputs
import proofs.«173434_g20873541059240_cont_8to1_1272_4_alg».proof.Proof.Gen.Pre_finite_inputs
import Idealize.ShloMosaic.Lib.ReduceAll
import Idealize.ShloMosaic.Lib.ValueIdx
import Idealize.ShloMosaic.PureOps.Ideal

/-!
# The finiteness precondition, read at the extended reals

At the exact instance a float is an extended real. The precondition `finite_inputs` states, for each of
the five input arrays, that the conjunction over all entries of `|x| < +∞` holds, and then conjoins the
five results. Read back entry by entry it says that no entry is `⊤` or `⊥`, that is, every entry is
(the image of) a real number. This is the form in which the algebraic laws of matrix products
(associativity, distributivity), which fail at the infinities, can be applied to the inputs.
-/

noncomputable section

namespace Cert.FiniteInputs

open Idealize.ShloMosaic

/-- The rank-zero shape has exactly one index (the empty tuple of coordinates). -/
instance : Subsingleton Cert.Pre_finite_inputs.S_.Idx := ⟨fun a b => funext fun d => d.elim0⟩

/-- The binary32 word with all exponent bits set and a zero significand denotes `+∞`. -/
theorem posInf_eq_top : Ideal.ofBits .f32 0x7F800000#32 = (⊤ : EReal) := by
  simp [Ideal.ofBits, Ideal.ieee]

/-- A one-bit word made from a Boolean is `1` exactly when the Boolean is true. -/
theorem ofBool_eq_one (b : Bool) : BitVec.ofBool b = 1#1 ↔ b = true := by cases b <;> decide

/-- An extended real whose absolute value `max x (-x)` is strictly below `⊤` is a real number:
    at `⊤` the maximum is `⊤`, and at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One array. If the conjunction over all entries of `|x i| < y i` is true, where `y` is constantly `⊤`,
    then every entry of `x` is a real number. The conjunction is a reduction by `and` into a result with
    a single index, so its being `1` gives the comparison bit `1` at every entry; the comparison bit is the
    decision of the strict order on the extended reals. -/
theorem entries_real_of_all {s t u : Shape} [Subsingleton t.Idx] {axes : List (Fin s.rank)}
    (x y : FVec Ideal s .f32) (hy : ∀ i, y i = (⊤ : EReal)) (init : IVec u 1)
    (hr : s.ReducesTo axes t) (hu : 0 < u.numel) (j : t.Idx)
    (e : Host.reduce IntOp.andi (cmpf .olt (Host.absf x) y) init hr hu j = 1#1) (i : s.Idx) :
    ∃ r : ℝ, x i = (r : EReal) := by
  have h1 : Ideal.cmp .olt (max (x i) (-(x i))) (y i) = 1#1 :=
    Host.reduce_andi_all (cmpf .olt (Host.absf x) y) init hr hu j e i
  have h2 : max (x i) (-(x i)) < y i :=
    of_decide_eq_true ((ofBool_eq_one _).1 h1)
  rw [hy i] at h2
  exact real_of_abs_lt_top _ h2

/-- Under the precondition every entry of every input is a real number. -/
theorem entries_real [Cert.Pre_finite_inputs.Facts]
    (x0 : FVec Ideal Cert.Pre_finite_inputs.S131x131 .f32) (x1 x2 : FVec Ideal Cert.Pre_finite_inputs.S131x512 .f32) (x3 x4 : FVec Ideal Cert.Pre_finite_inputs.S512x512 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  -- the one entry of the rank-zero result
  have h0 := congrFun h ValueIdx.ix0
  dsimp only [Cert.Pre_finite_inputs.fn, Cert.Pre_finite_inputs.fn_part1, Idealize.ShloMosaic.andi] at h0
  -- the result is the conjunction ((((a0 ∧ a1) ∧ a2) ∧ a3) ∧ a4) of the five all-reductions
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  -- the broadcast of the constant `+∞` is `⊤` at every index
  have top : ∀ {s : Shape} (hb : Cert.Pre_finite_inputs.S_.BroadcastsInDim s (![] : Fin 0 → Fin s.rank)) (i : s.Idx),
      broadcastInDim s ![] hb (constant (F := Ideal) Cert.Pre_finite_inputs.S_ .f32 0x7F800000#32) i = (⊤ : EReal) :=
    fun _ _ => posInf_eq_top
  exact ⟨entries_real_of_all x0 _ (top _) _ _ _ _ e0, entries_real_of_all x1 _ (top _) _ _ _ _ e1,
    entries_real_of_all x2 _ (top _) _ _ _ _ e2, entries_real_of_all x3 _ (top _) _ _ _ _ e3,
    entries_real_of_all x4 _ (top _) _ _ _ _ e4⟩

end Cert.FiniteInputs

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.LibRealMatrix.lean ====
/-
  Arrays of extended reals that hold real matrices.

  At the exact instance a float array is a function from indices to extended reals.  An [M, N] array HOLDS the real
  matrix `a` when its entry (p, q) is the real number `a p q`.  Sums and products of such arrays hold the sum and
  the matrix product of the matrices they hold — an entrywise sum of reals is real, and a finite sum of products of
  reals is the real sum of products — and a transposed array holds the transposed matrix.  On real matrices the
  product is associative and distributes over sums, which it does not on extended reals at the infinities: this is
  how  (U Uᵀ + I Iᵀ) X  and  U (Uᵀ X) + I (Iᵀ X)  are seen to be one matrix.
-/
import Mathlib.Data.Matrix.Mul
import Mathlib.Data.EReal.Basic
import Idealize.ShloMosaic.Lib.ValueIdx
import Idealize.ShloMosaic.Lib.ValueLayout
import Idealize.ShloMosaic.Lib.Pipeline.Value
import Idealize.ShloMosaic.PureOps.Ideal.Laws
import proofs.«173434_g20873541059240_cont_8to1_1272_4_alg».proof.Proof.LibPlainDot
import proofs.«173434_g20873541059240_cont_8to1_1272_4_alg».proof.Proof.LibDotForms

noncomputable section

open scoped BigOperators

namespace Cert.RealMatrix

open Idealize.ShloMosaic Idealize.ShloMosaic.ValueIdx

variable {M K N : Nat}

/-- The [M, N] array `A` holds the real matrix `a`: its entry (p, q) is the real number `a p q`. -/
def Holds (A : (⟨2, ![M, N]⟩ : Shape).Idx → EReal) (a : Matrix (Fin M) (Fin N) ℝ) : Prop :=
  ∀ (p : Fin M) (q : Fin N), A (ix2 p q) = ((a p q : ℝ) : EReal)

/-- Two arrays that hold one matrix are equal. -/
theorem Holds.ext {A B : (⟨2, ![M, N]⟩ : Shape).Idx → EReal} {a : Matrix (Fin M) (Fin N) ℝ}
    (hA : Holds A a) (hB : Holds B a) : A = B :=
  funext fun j => by
    obtain ⟨p, q, rfl⟩ : ∃ (p : Fin M) (q : Fin N), j = ix2 p q := ⟨j 0, j 1, eq_ix2 j⟩
    exact (hA p q).trans (hB p q).symm

/-- An array all of whose entries are real holds the matrix of those reals. -/
theorem exists_holds (A : (⟨2, ![M, N]⟩ : Shape).Idx → EReal) (h : ∀ i, ∃ r : ℝ, A i = (r : EReal)) :
    ∃ a : Matrix (Fin M) (Fin N) ℝ, Holds A a :=
  ⟨fun p q => Classical.choose (h (ix2 p q)), fun p q => Classical.choose_spec (h (ix2 p q))⟩

/-- The image of a finite sum of reals is the sum of the images. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A row of one held matrix against a column of another: the sum of the entries' products is the entry of the
    matrix product. -/
theorem sum_mul_eq {A : (⟨2, ![M, K]⟩ : Shape).Idx → EReal} {B : (⟨2, ![K, N]⟩ : Shape).Idx → EReal}
    {a : Matrix (Fin M) (Fin K) ℝ} {b : Matrix (Fin K) (Fin N) ℝ} (hA : Holds A a) (hB : Holds B b) (p : Fin M) (q : Fin N) :
    ∑ i : Fin K, A (ix2 p i) * B (ix2 i q) = (((a * b) p q : ℝ) : EReal) := by
  rw [Matrix.mul_apply, coe_sum]
  refine Finset.sum_congr rfl fun i _ => ?_
  rw [hA, hB, EReal.coe_mul]

section Ops

variable {φ : FTy}

/-- The entrywise sum of two arrays holds the sum of the matrices. -/
theorem Holds.addf {A B : FVec Ideal ⟨2, ![M, N]⟩ φ} {a b : Matrix (Fin M) (Fin N) ℝ} (hA : Holds A a) (hB : Holds B b) :
    Holds (addf A B) (a + b) := fun p q => by
  rw [addf_apply, hA, hB, Matrix.add_apply, EReal.coe_add]

/-- A kernel's plain product into a zero accumulator holds the matrix product. -/
theorem Holds.matmul {d : DotDims ⟨2, ![M, K]⟩ ⟨2, ![K, N]⟩ ⟨2, ![M, N]⟩} (hd : PlainDot.IsPlain d) {φ₁ φ₂ : FTy}
    (prec : Option ContractPrecision) {A : FVec Ideal ⟨2, ![M, K]⟩ φ₁} {B : FVec Ideal ⟨2, ![K, N]⟩ φ₂}
    {a : Matrix (Fin M) (Fin K) ℝ} {b : Matrix (Fin K) (Fin N) ℝ} (hA : Holds A a) (hB : Holds B b) :
    Holds (Idealize.ShloMosaic.matmul d prec A B (constant ⟨2, ![M, N]⟩ .f32 0x00000000#32)) (a * b) := fun p q =>
  (PlainDot.matmul_zero_apply hd prec A B p q).trans (sum_mul_eq hA hB p q)

/-- The host's plain product holds the matrix product. -/
theorem Holds.dotGeneral {d : DotDims ⟨2, ![M, K]⟩ ⟨2, ![K, N]⟩ ⟨2, ![M, N]⟩} (hd : PlainDot.IsPlain d) {φ₁ φ₂ : FTy}
    (prec : Option ContractPrecision) {A : FVec Ideal ⟨2, ![M, K]⟩ φ₁} {B : FVec Ideal ⟨2, ![K, N]⟩ φ₂}
    {a : Matrix (Fin M) (Fin K) ℝ} {b : Matrix (Fin K) (Fin N) ℝ} (hA : Holds A a) (hB : Holds B b) :
    Holds (Host.dotGeneral d prec A B) (a * b) := fun p q =>
  (PlainDot.dotGeneral_apply hd prec .single A B p q).trans (sum_mul_eq hA hB p q)

/-- A transposed array holds the transposed matrix. -/
theorem Holds.transpose {A : (⟨2, ![M, N]⟩ : Shape).Idx → EReal} {a : Matrix (Fin M) (Fin N) ℝ} (hA : Holds A a)
    (h : (⟨2, ![M, N]⟩ : Shape).Transposes [1, 0] ⟨2, ![N, M]⟩) :
    Holds (Idealize.ShloMosaic.transpose ⟨2, ![N, M]⟩ [1, 0] A h) a.transpose := fun p q => by
  rw [transpose_ix2_apply, hA, Matrix.transpose_apply]

/-- A kernel's product of an array with the transpose of another, into a zero accumulator, holds  a · bᵀ. -/
theorem Holds.matmul_abt {d : DotDims ⟨2, ![M, K]⟩ ⟨2, ![N, K]⟩ ⟨2, ![M, N]⟩} (hd : DotForms.IsABt d) {φ₁ φ₂ : FTy}
    (prec : Option ContractPrecision) {A : FVec Ideal ⟨2, ![M, K]⟩ φ₁} {B : FVec Ideal ⟨2, ![N, K]⟩ φ₂}
    {a : Matrix (Fin M) (Fin K) ℝ} {b : Matrix (Fin N) (Fin K) ℝ} (hA : Holds A a) (hB : Holds B b) :
    Holds (Idealize.ShloMosaic.matmul d prec A B (constant ⟨2, ![M, N]⟩ .f32 0x00000000#32)) (a * b.transpose) := fun p q => by
  rw [DotForms.abt_matmul_zero_apply hd prec A B p q, Matrix.mul_apply, coe_sum]
  refine Finset.sum_congr rfl fun i _ => ?_
  rw [hA, hB, EReal.coe_mul, Matrix.transpose_apply]

end Ops

/-! ## The algebra on real matrices -/

variable {H : Nat}

/-- One hypergraph step both ways: the Gram matrices applied to `x`, against the two-stage products. -/
theorem gram_mul (u i : Matrix (Fin M) (Fin H) ℝ) (x : Matrix (Fin M) (Fin N) ℝ) :
    (u * u.transpose + i * i.transpose) * x = u * (u.transpose * x) + i * (i.transpose * x) := by
  rw [Matrix.add_mul, Matrix.mul_assoc, Matrix.mul_assoc]

end Cert.RealMatrix

end
-- ==== Proof.Stack.lean ====
/-
  Two [131, 512] arrays stacked along a new leading axis.

  Both programs return their per-layer results as one [2, 131, 512] array whose slab `l` is layer `l`'s [131, 512]
  array.  `stack2 X0 X1` is that array as a function of the index.  The host builds it by giving each layer a leading
  unit axis (a broadcast along the two trailing axes) and concatenating the two along axis 0; read at (l, p, q) the
  concatenation is the first piece where l = 0 and the second where l = 1, and either piece at (0, p, q) is its layer
  at (p, q).
-/
import Idealize.ShloMosaic.Lib.ValueIdx
import Idealize.ShloMosaic.Lib.ValueLayout
import Idealize.ShloMosaic.Lib.Pipeline.Value

noncomputable section

namespace Cert.Stack

open Idealize.ShloMosaic Idealize.ShloMosaic.ValueIdx

variable {α : Type}

/-- The [2, 131, 512] array whose slab 0 is `X0` and whose slab 1 is `X1`. -/
def stack2 (X0 X1 : (⟨2, ![131, 512]⟩ : Shape).Idx → α) : (⟨3, ![2, 131, 512]⟩ : Shape).Idx → α :=
  fun j => if (j 0).val = 0 then X0 (ix2 (j 1) (j 2)) else X1 (ix2 (j 1) (j 2))

theorem stack2_zero (X0 X1 : (⟨2, ![131, 512]⟩ : Shape).Idx → α) (p : Fin 131) (q : Fin 512) :
    stack2 X0 X1 (ix3 (0 : Fin 2) p q) = X0 (ix2 p q) := rfl

theorem stack2_one (X0 X1 : (⟨2, ![131, 512]⟩ : Shape).Idx → α) (p : Fin 131) (q : Fin 512) :
    stack2 X0 X1 (ix3 (1 : Fin 2) p q) = X1 (ix2 p q) := rfl

/-- Every index of the stacked array is (0, p, q) or (1, p, q). -/
theorem idx_cases (j : (⟨3, ![2, 131, 512]⟩ : Shape).Idx) :
    (∃ p q, j = ix3 (0 : Fin 2) p q) ∨ (∃ p q, j = ix3 (1 : Fin 2) p q) := by
  have hj := eq_ix3 j
  have h2 : (j 0).val < 2 := (j 0).isLt
  rcases Nat.lt_or_ge (j 0).val 1 with h | h
  · left; refine ⟨j 1, j 2, ?_⟩
    have : j 0 = (0 : Fin 2) := Fin.ext (by show (j 0).val = 0; omega)
    rw [← this]; exact hj
  · right; refine ⟨j 1, j 2, ?_⟩
    have : j 0 = (1 : Fin 2) := Fin.ext (by show (j 0).val = 1; omega)
    rw [← this]; exact hj

/-- A [131, 512] array given a leading unit axis reads, at (0, p, q), the array at (p, q). -/
theorem lead_apply (hb : (⟨2, ![131, 512]⟩ : Shape).BroadcastsInDim ⟨3, ![1, 131, 512]⟩ ![1, 2])
    (X : (⟨2, ![131, 512]⟩ : Shape).Idx → α) (p : Fin 131) (q : Fin 512) :
    broadcastInDim ⟨3, ![1, 131, 512]⟩ ![1, 2] hb X (ix3 (0 : Fin 1) p q) = X (ix2 p q) :=
  broadcastInDim_apply _ hb X _ _ fun a => by
    match a with
    | ⟨0, _⟩ => exact (if_neg (show ¬((131 : Nat) = 1) by decide)).symm
    | ⟨1, _⟩ => exact (if_neg (show ¬((512 : Nat) = 1) by decide)).symm

/-- The host's stacking — each layer given a leading unit axis, the two concatenated along axis 0 — is `stack2`. -/
theorem concatenate_lead (hb : (⟨2, ![131, 512]⟩ : Shape).BroadcastsInDim ⟨3, ![1, 131, 512]⟩ ![1, 2])
    (hc : Shape.Concatenates [(⟨3, ![1, 131, 512]⟩ : Shape), ⟨3, ![1, 131, 512]⟩] ⟨3, ![2, 131, 512]⟩ 0)
    (X0 X1 : (⟨2, ![131, 512]⟩ : Shape).Idx → α) :
    concatenate ⟨3, ![2, 131, 512]⟩ 0
      [⟨⟨3, ![1, 131, 512]⟩, broadcastInDim ⟨3, ![1, 131, 512]⟩ ![1, 2] hb X0⟩,
       ⟨⟨3, ![1, 131, 512]⟩, broadcastInDim ⟨3, ![1, 131, 512]⟩ ![1, 2] hb X1⟩] hc = stack2 X0 X1 := by
  funext j
  rcases idx_cases j with ⟨p, q, rfl⟩ | ⟨p, q, rfl⟩
  · rw [stack2_zero, ← lead_apply hb X0 p q]
    exact concatenate_pair_apply_left 0 _ _ hc _ rfl (ix3 (0 : Fin 1) p q) fun b => by
      match b with
      | ⟨0, _⟩ => rfl
      | ⟨1, _⟩ => rfl
      | ⟨2, _⟩ => rfl
  · rw [stack2_one, ← lead_apply hb X1 p q]
    exact concatenate_pair_apply_right 0 _ _ hc _ rfl rfl (ix3 (0 : Fin 1) p q) (fun b hb' => by
      match b, hb' with
      | ⟨0, _⟩, h => exact absurd rfl h
      | ⟨1, _⟩, _ => rfl
      | ⟨2, _⟩, _ => rfl) rfl

end Cert.Stack

end
-- ==== Proof.KernelWhole.lean ====
/-
  What the kernel leaves in its three result arrays, and the real matrices they hold.

  The kernel has no grid: each window's one block is its whole array, the body runs once, and what it stores is
  written back whole.  With  E = u + i,  U = u · uH,  I = i · iH  and the Gram matrix  G = U · Uᵀ + I · Iᵀ,  the body
  computes per layer the graph step  T = adj · L  and the hypergraph step  H = G · L  from  L = E  and then from
  L = T + H,  stores the two T's and the two H's as the two slabs of the [2, 131, 512] results, and stores the
  literal 0x3C257A78 times  (E + L1) + (T2 + H2)  as the first result.  When the five inputs hold real matrices every
  value of the body holds the matrix the same formula gives over the reals.
-/
import proofs.«173434_g20873541059240_cont_8to1_1272_4_alg».proof.Proof.Gen.KernelIdeal.Value
import proofs.«173434_g20873541059240_cont_8to1_1272_4_alg».proof.Proof.LibRealMatrix
import proofs.«173434_g20873541059240_cont_8to1_1272_4_alg».proof.Proof.Stack
import Idealize.ShloMosaic.Lib.Pipeline.Value

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx Cert.RealMatrix Cert.Stack

section AnyInstance

variable {F : FTy → Type} [FloatOps F]

theorem zeros2 : (![0, 0] : Fin 2 → Nat) = fun _ => 0 := funext fun a => by fin_cases a <;> rfl

/-- The first result's buffer after the body is the one value stored into it: the literal times the accumulated sum. -/
theorem out5_eq (x0 : Vec F S131x131 .f32) (x1 x2 : Vec F S131x512 .f32) (x3 x4 : Vec F S512x512 .f32) :
    out0_5 x0 x1 x2 x3 x4
      = k0_pay2 (k0_pay10 x1 x2 x0 x3 x4) (k0_pay11 x1 x2 x0 x3 x4) (k0_pay12 x1 x2 x0 x3 x4) := by
  unfold out0_5
  rw [View.canon_unit_zero zeros2]
  simp only [View.ld_unit_zero (S := S131x512) zeros2, View.ld_unit_zero (S := S131x131) zeros2,
    View.ld_unit_zero (S := S512x512) zeros2]

/-- The slab rectangle at leading offset 0 sends (u, p, q) to (0, p, q). -/
theorem slab0_emb (inb : ∀ a, (![0, 0, 0] : Fin 3 → Nat) a + S1x131x512.size a ≤ S2x131x512.size a)
    (u : Fin 1) (p : Fin 131) (q : Fin 512) :
    (Rect.unit (s := S2x131x512) ![0, 0, 0] S1x131x512.size inb).emb (ix3 u p q) = ix3 (0 : Fin 2) p q := by
  funext a
  apply Fin.ext
  simp only [Rect.emb_apply, Rect.off_unit, Rect.stride_unit, Nat.one_mul]
  have hu : u.val = 0 := by omega
  match a with
  | ⟨0, _⟩ => show 0 + u.val = 0; omega
  | ⟨1, _⟩ => show 0 + p.val = p.val; omega
  | ⟨2, _⟩ => show 0 + q.val = q.val; omega

/-- The slab rectangle at leading offset 1 sends (u, p, q) to (1, p, q). -/
theorem slab1_emb (inb : ∀ a, (![1, 0, 0] : Fin 3 → Nat) a + S1x131x512.size a ≤ S2x131x512.size a)
    (u : Fin 1) (p : Fin 131) (q : Fin 512) :
    (Rect.unit (s := S2x131x512) ![1, 0, 0] S1x131x512.size inb).emb (ix3 u p q) = ix3 (1 : Fin 2) p q := by
  funext a
  apply Fin.ext
  simp only [Rect.emb_apply, Rect.off_unit, Rect.stride_unit, Nat.one_mul]
  have hu : u.val = 0 := by omega
  match a with
  | ⟨0, _⟩ => show 1 + u.val = 1; omega
  | ⟨1, _⟩ => show 0 + p.val = p.val; omega
  | ⟨2, _⟩ => show 0 + q.val = q.val; omega

/-- A [131, 512] value cast to a slab and stored at leading offset 0 agrees with the stack whose slab 0 it is. -/
theorem slab0_piece (Y0 Y1 : FVec F S131x512 .f32) (x : S1x131x512.Idx) :
    shapeCast S1x131x512 Y0 shapeCasts_S131x512_S1x131x512 x = stack2 Y0 Y1 (r0_3.emb x) := by
  obtain ⟨u, p, q, rfl⟩ : ∃ (u : Fin 1) (p : Fin 131) (q : Fin 512), x = ix3 u p q := ⟨x 0, x 1, x 2, eq_ix3 x⟩
  rw [show r0_3.emb (ix3 u p q) = ix3 (0 : Fin 2) p q from slab0_emb _ u p q, stack2_zero]
  exact shapeCast_ab_1ab_apply Y0 _ u p q

/-- The same at leading offset 1. -/
theorem slab1_piece (Y0 Y1 : FVec F S131x512 .f32) (x : S1x131x512.Idx) :
    shapeCast S1x131x512 Y1 shapeCasts_S131x512_S1x131x512 x = stack2 Y0 Y1 (r0_4.emb x) := by
  obtain ⟨u, p, q, rfl⟩ : ∃ (u : Fin 1) (p : Fin 131) (q : Fin 512), x = ix3 u p q := ⟨x 0, x 1, x 2, eq_ix3 x⟩
  rw [show r0_4.emb (ix3 u p q) = ix3 (1 : Fin 2) p q from slab1_emb _ u p q, stack2_one]
  exact shapeCast_ab_1ab_apply Y1 _ u p q

/-- Two [131, 512] values, each cast to a slab and stored at leading offsets 1 and 0, leave the stacked array. -/
theorem canon_slabs (Y0 Y1 : FVec F S131x512 .f32)
    (hcov : ∀ y : S2x131x512.Idx, ∃ pc ∈ ([⟨r0_4, shapeCast S1x131x512 Y1 shapeCasts_S131x512_S1x131x512⟩,
        ⟨r0_3, shapeCast S1x131x512 Y0 shapeCasts_S131x512_S1x131x512⟩] : List (View.Piece (Elt F) S2x131x512 .f32)), y ∈ pc.1.set) :
    View.canon ([⟨r0_4, shapeCast S1x131x512 Y1 shapeCasts_S131x512_S1x131x512⟩,
        ⟨r0_3, shapeCast S1x131x512 Y0 shapeCasts_S131x512_S1x131x512⟩] : List (View.Piece (Elt F) S2x131x512 .f32))
      = stack2 Y0 Y1 := by
  funext j
  refine View.canon_apply_of_pieces (stack2 Y0 Y1) _ ?_ j (hcov j)
  intro pc hpc
  rcases List.mem_cons.mp hpc with rfl | hpc
  · exact fun x => slab1_piece Y0 Y1 x
  · obtain rfl := List.mem_singleton.mp hpc
    exact fun x => slab0_piece Y0 Y1 x

/-- The second result's buffer after the body: the two graph steps stacked. -/
theorem out6_eq (x0 : Vec F S131x131 .f32) (x1 x2 : Vec F S131x512 .f32) (x3 x4 : Vec F S512x512 .f32) :
    out0_6 x0 x1 x2 x3 x4 = stack2 (k0_pay5 x1 x2 x0) (k0_pay11 x1 x2 x0 x3 x4) := by
  unfold out0_6
  simp only [View.ld_unit_zero (S := S131x512) zeros2, View.ld_unit_zero (S := S131x131) zeros2,
    View.ld_unit_zero (S := S512x512) zeros2]
  exact canon_slabs _ _ (cover0_6 _ _)

/-- The third result's buffer after the body: the two hypergraph steps stacked. -/
theorem out7_eq (x0 : Vec F S131x131 .f32) (x1 x2 : Vec F S131x512 .f32) (x3 x4 : Vec F S512x512 .f32) :
    out0_7 x0 x1 x2 x3 x4 = stack2 (k0_pay6 x1 x2 x3 x4) (k0_pay12 x1 x2 x0 x3 x4) := by
  unfold out0_7
  simp only [View.ld_unit_zero (S := S131x512) zeros2, View.ld_unit_zero (S := S131x131) zeros2,
    View.ld_unit_zero (S := S512x512) zeros2]
  exact canon_slabs _ _ (cover0_7 _ _)

variable (m : (ℓ : Loc nD τ sig) → Buf (Elt F) ℓ) (ρ : Dev nD → PrngReg)

/-! ### The one block of each window is its whole array -/

theorem iblk_0 (c : Dev nD) (t : Fin cfg0.N) : iblk m c 0 t = m ((c : Thread nD τ).loc main_arg0) := by
  unfold iblk
  have hz : (fun a => win0_0.index t a * main_arg0.ty.shape.size a) = fun _ => 0 := funext fun a => by show 0 * _ = 0; exact Nat.zero_mul _
  exact Memref.read_access_unit_zero (Elt F) main_arg0 hz (fun a => by rw [congrFun hz a]; simp) _

theorem iblk_1 (c : Dev nD) (t : Fin cfg0.N) : iblk m c 1 t = m ((c : Thread nD τ).loc main_arg1) := by
  unfold iblk
  have hz : (fun a => win0_1.index t a * main_arg1.ty.shape.size a) = fun _ => 0 := funext fun a => by show 0 * _ = 0; exact Nat.zero_mul _
  exact Memref.read_access_unit_zero (Elt F) main_arg1 hz (fun a => by rw [congrFun hz a]; simp) _

theorem iblk_2 (c : Dev nD) (t : Fin cfg0.N) : iblk m c 2 t = m ((c : Thread nD τ).loc main_arg2) := by
  unfold iblk
  have hz : (fun a => win0_2.index t a * main_arg2.ty.shape.size a) = fun _ => 0 := funext fun a => by show 0 * _ = 0; exact Nat.zero_mul _
  exact Memref.read_access_unit_zero (Elt F) main_arg2 hz (fun a => by rw [congrFun hz a]; simp) _

theorem iblk_3 (c : Dev nD) (t : Fin cfg0.N) : iblk m c 3 t = m ((c : Thread nD τ).loc main_arg3) := by
  unfold iblk
  have hz : (fun a => win0_3.index t a * main_arg3.ty.shape.size a) = fun _ => 0 := funext fun a => by show 0 * _ = 0; exact Nat.zero_mul _
  exact Memref.read_access_unit_zero (Elt F) main_arg3 hz (fun a => by rw [congrFun hz a]; simp) _

theorem iblk_4 (c : Dev nD) (t : Fin cfg0.N) : iblk m c 4 t = m ((c : Thread nD τ).loc main_arg4) := by
  unfold iblk
  have hz : (fun a => win0_4.index t a * main_arg4.ty.shape.size a) = fun _ => 0 := funext fun a => by show 0 * _ = 0; exact Nat.zero_mul _
  exact Memref.read_access_unit_zero (Elt F) main_arg4 hz (fun a => by rw [congrFun hz a]; simp) _

/-- The kernel's three results as functions of the argument arrays. -/
abbrev res5 (c : Dev nD) : Vec F S131x512 .f32 :=
  out0_5 (m ((c : Thread nD τ).loc main_arg0)) (m ((c : Thread nD τ).loc main_arg1)) (m ((c : Thread nD τ).loc main_arg2)) (m ((c : Thread nD τ).loc main_arg3)) (m ((c : Thread nD τ).loc main_arg4))
abbrev res6 (c : Dev nD) : Vec F S2x131x512 .f32 :=
  out0_6 (m ((c : Thread nD τ).loc main_arg0)) (m ((c : Thread nD τ).loc main_arg1)) (m ((c : Thread nD τ).loc main_arg2)) (m ((c : Thread nD τ).loc main_arg3)) (m ((c : Thread nD τ).loc main_arg4))
abbrev res7 (c : Dev nD) : Vec F S2x131x512 .f32 :=
  out0_7 (m ((c : Thread nD τ).loc main_arg0)) (m ((c : Thread nD τ).loc main_arg1)) (m ((c : Thread nD τ).loc main_arg2)) (m ((c : Thread nD τ).loc main_arg3)) (m ((c : Thread nD τ).loc main_arg4))

/-- What the one point writes back to each result array is the body's buffer, whole. -/
theorem flushed5_eq (c : Dev nD) (t : Fin cfg0.N) :
    (dats m 0 c).flushed 5 t = ((cfg0.win 5).blk t).view.read (Elt F) (res5 m c) := by
  rw [flushed5, iblk_0, iblk_1, iblk_2, iblk_3, iblk_4]
  have hz : (fun a => win0_5.index t a * main_v0_0.ty.shape.size a) = fun _ => 0 := funext fun a => by show 0 * _ = 0; exact Nat.zero_mul _
  exact (Memref.read_access_unit_zero (Elt F) main_v0_0 hz (fun a => by rw [congrFun hz a]; simp) (res5 m c)).symm

theorem flushed6_eq (c : Dev nD) (t : Fin cfg0.N) :
    (dats m 0 c).flushed 6 t = ((cfg0.win 6).blk t).view.read (Elt F) (res6 m c) := by
  rw [flushed6, iblk_0, iblk_1, iblk_2, iblk_3, iblk_4]
  have hz : (fun a => win0_6.index t a * main_v0_1.ty.shape.size a) = fun _ => 0 := funext fun a => by show 0 * _ = 0; exact Nat.zero_mul _
  exact (Memref.read_access_unit_zero (Elt F) main_v0_1 hz (fun a => by rw [congrFun hz a]; simp) (res6 m c)).symm

theorem flushed7_eq (c : Dev nD) (t : Fin cfg0.N) :
    (dats m 0 c).flushed 7 t = ((cfg0.win 7).blk t).view.read (Elt F) (res7 m c) := by
  rw [flushed7, iblk_0, iblk_1, iblk_2, iblk_3, iblk_4]
  have hz : (fun a => win0_7.index t a * main_v0_2.ty.shape.size a) = fun _ => 0 := funext fun a => by show 0 * _ = 0; exact Nat.zero_mul _
  exact (Memref.read_access_unit_zero (Elt F) main_v0_2 hz (fun a => by rw [congrFun hz a]; simp) (res7 m c)).symm

/-- The one grid point. -/
theorem point0 : (0 : Nat) < cfg0.N := by rw [show cfg0.N = 1 from N_0]; exact Nat.one_pos

/-- Every index of a result array lies in the one point's block. -/
theorem cover5 (i : S131x512.Idx) : ∃ t : Fin cfg0.N, (cfg0.win 5).flush t = true ∧ i ∈ ((cfg0.win 5).blk t).view.set := by
  refine ⟨⟨0, point0⟩, flush0_5 _, ?_⟩
  show i ∈ ((View.whole main_v0_0).slice (win0_5.rect ⟨0, point0⟩)).set
  rw [View.set_slice_whole, Rect.mem_set_unit]
  intro a
  have hi : (i a).val < S131x512.size a := (i a).isLt
  refine ⟨?_, ?_⟩
  · show 0 * _ ≤ _; rw [Nat.zero_mul]; exact Nat.zero_le _
  · show (i a).val < 0 * S131x512.size a + S131x512.size a; rw [Nat.zero_mul, Nat.zero_add]; exact hi

theorem cover6 (i : S2x131x512.Idx) : ∃ t : Fin cfg0.N, (cfg0.win 6).flush t = true ∧ i ∈ ((cfg0.win 6).blk t).view.set := by
  refine ⟨⟨0, point0⟩, flush0_6 _, ?_⟩
  show i ∈ ((View.whole main_v0_1).slice (win0_6.rect ⟨0, point0⟩)).set
  rw [View.set_slice_whole, Rect.mem_set_unit]
  intro a
  have hi : (i a).val < S2x131x512.size a := (i a).isLt
  refine ⟨?_, ?_⟩
  · show 0 * _ ≤ _; rw [Nat.zero_mul]; exact Nat.zero_le _
  · show (i a).val < 0 * S2x131x512.size a + S2x131x512.size a; rw [Nat.zero_mul, Nat.zero_add]; exact hi

theorem cover7 (i : S2x131x512.Idx) : ∃ t : Fin cfg0.N, (cfg0.win 7).flush t = true ∧ i ∈ ((cfg0.win 7).blk t).view.set := by
  refine ⟨⟨0, point0⟩, flush0_7 _, ?_⟩
  show i ∈ ((View.whole main_v0_2).slice (win0_7.rect ⟨0, point0⟩)).set
  rw [View.set_slice_whole, Rect.mem_set_unit]
  intro a
  have hi : (i a).val < S2x131x512.size a := (i a).isLt
  refine ⟨?_, ?_⟩
  · show 0 * _ ≤ _; rw [Nat.zero_mul]; exact Nat.zero_le _
  · show (i a).val < 0 * S2x131x512.size a + S2x131x512.size a; rw [Nat.zero_mul, Nat.zero_add]; exact hi

/-- The kernel's run with its three result arrays at the body's buffers of the argument arrays. -/
theorem run : θ_run defs (onTc (τ := τ) (main (F := F))) ⟨m, fun _ => 0, ρ⟩ fun r => ∀ c : Dev nD,
      r.2.mem ((c : Thread nD τ).loc main_v0_0) = res5 m c
      ∧ r.2.mem ((c : Thread nD τ).loc main_v0_1) = res6 m c
      ∧ r.2.mem ((c : Thread nD τ).loc main_v0_2) = res7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(h c).1.trans ((dats m 0 c).arrAt_eq_of_cover 5 (res5 m c) (fun t _ => flushed5_eq m c t) cover5),
       (h c).2.1.trans ((dats m 0 c).arrAt_eq_of_cover 6 (res6 m c) (fun t _ => flushed6_eq m c t) cover6),
       (h c).2.2.1.trans ((dats m 0 c).arrAt_eq_of_cover 7 (res7 m c) (fun t _ => flushed7_eq m c t) cover7),
       (h c).2.2.2⟩)
    (run_blocks m ρ)

end AnyInstance

/-! ## The body's values at the exact instance -/

theorem plain_proj : PlainDot.IsPlain dot_S131x512_S512x512_S131x512_1_0_0_1_n_n := ⟨rfl, rfl, rfl, rfl, rfl, rfl⟩
theorem plain_spread : PlainDot.IsPlain dot_S131x131_S131x512_S131x512_1_0_0_1_n_n := ⟨rfl, rfl, rfl, rfl, rfl, rfl⟩
theorem gram_dims : DotForms.IsABt dot_S131x512_S131x512_S131x131_1_1_0_0_n_n := ⟨rfl, rfl, rfl, rfl, rfl, rfl⟩

variable {adj : Vec Ideal S131x131 .f32} {u i : Vec Ideal S131x512 .f32} {uh ih : Vec Ideal S512x512 .f32}
variable {a : Matrix (Fin 131) (Fin 131) ℝ} {u' i' : Matrix (Fin 131) (Fin 512) ℝ} {uh' ih' : Matrix (Fin 512) (Fin 512) ℝ}

/-- E = u + i. -/
theorem holds_emb (hu : Holds u u') (hi : Holds i i') : Holds (k0_pay3 u i) (u' + i') := by
  unfold k0_pay3; exact hu.addf hi

/-- The Gram matrix  U · Uᵀ + I · Iᵀ  with  U = u · uH,  I = i · iH. -/
theorem holds_gram (hu : Holds u u') (hi : Holds i i') (huh : Holds uh uh') (hih : Holds ih ih') :
    Holds (k0_pay4 u i uh ih) ((u' * uh') * (u' * uh').transpose + (i' * ih') * (i' * ih').transpose) := by
  unfold k0_pay4
  exact (Holds.matmul_abt gram_dims none (Holds.matmul plain_proj none hu huh) (Holds.matmul plain_proj none hu huh)).addf
    (Holds.matmul_abt gram_dims none (Holds.matmul plain_proj none hi hih) (Holds.matmul plain_proj none hi hih))

/-- The graph step of the first layer:  adj · E. -/
theorem holds_gnn1 (ha : Holds adj a) (hu : Holds u u') (hi : Holds i i') :
    Holds (k0_pay5 u i adj) (a * (u' + i')) := by
  unfold k0_pay5; exact Holds.matmul plain_spread none ha (holds_emb hu hi)

variable {g : Matrix (Fin 131) (Fin 131) ℝ}

/-- The hypergraph step of the first layer:  G · E. -/
theorem holds_hyp1 (hu : Holds u u') (hi : Holds i i') (hg : Holds (k0_pay4 u i uh ih) g) :
    Holds (k0_pay6 u i uh ih) (g * (u' + i')) := by
  unfold k0_pay6; exact Holds.matmul plain_spread none hg (holds_emb hu hi)

/-- The first layer's output:  adj · E + G · E. -/
theorem holds_lat1 (ha : Holds adj a) (hu : Holds u u') (hi : Holds i i') (hg : Holds (k0_pay4 u i uh ih) g) :
    Holds (k0_pay9 u i adj uh ih) (a * (u' + i') + g * (u' + i')) := by
  unfold k0_pay9; exact (holds_gnn1 ha hu hi).addf (holds_hyp1 hu hi hg)

variable {l1 : Matrix (Fin 131) (Fin 512) ℝ}

/-- The embeddings plus the first layer's output. -/
theorem holds_acc1 (hu : Holds u u') (hi : Holds i i') (hl : Holds (k0_pay9 u i adj uh ih) l1) :
    Holds (k0_pay10 u i adj uh ih) ((u' + i') + l1) := by
  unfold k0_pay10; exact (holds_emb hu hi).addf hl

/-- The graph step of the second layer:  adj · L1. -/
theorem holds_gnn2 (ha : Holds adj a) (hl : Holds (k0_pay9 u i adj uh ih) l1) :
    Holds (k0_pay11 u i adj uh ih) (a * l1) := by
  unfold k0_pay11; exact Holds.matmul plain_spread none ha hl

/-- The hypergraph step of the second layer:  G · L1. -/
theorem holds_hyp2 (hg : Holds (k0_pay4 u i uh ih) g) (hl : Holds (k0_pay9 u i adj uh ih) l1) :
    Holds (k0_pay12 u i adj uh ih) (g * l1) := by
  unfold k0_pay12; exact Holds.matmul plain_spread none hg hl

/-- The stored first result, entry by entry: the literal times the entry of  acc + (t + h). -/
theorem scaled_apply {v20 v21 v22 : FVec Ideal S131x512 .f32} {x20 x21 x22 : Matrix (Fin 131) (Fin 512) ℝ}
    (h20 : Holds v20 x20) (h21 : Holds v21 x21) (h22 : Holds v22 x22) (p : Fin 131) (q : Fin 512) :
    k0_pay2 v20 v21 v22 (ix2 p q) = Ideal.ofBits .f32 0x3C257A78#32 * (((x20 + (x21 + x22)) p q : ℝ) : EReal) := by
  have h := (h20.addf (h21.addf h22)) p q
  unfold k0_pay2
  show Ideal.ofBits .f32 0x3C257A78#32 * (addf v20 (addf v21 v22)) (ix2 p q) = _
  rw [h]

end Cert.KernelIdeal.Whole

end
-- ==== Proof.RefStages.lean ====
/-
  What the reference computes, stage by stage, and the real matrices its stages hold.

  With  E = u + i,  U = u · uH,  I = i · iH,  one layer sends a [131, 512] array X to
      spread adj X + (U · (Uᵀ · X) + I · (Iᵀ · X)),
  the first term the graph step and the bracket the hypergraph step.  The reference applies the layer twice from E,
  returns the two graph steps and the two hypergraph steps stacked, and the literal 0x3C257A78 times
  ((0 + E) + L1) + L2.  When the five inputs hold real matrices, every stage holds the matrix the same formula gives
  over the reals.
-/
import proofs.«173434_g20873541059240_cont_8to1_1272_4_alg».proof.Proof.RefRunP
import proofs.«173434_g20873541059240_cont_8to1_1272_4_alg».proof.Proof.LibRealMatrix
import proofs.«173434_g20873541059240_cont_8to1_1272_4_alg».proof.Proof.Stack

noncomputable section

namespace Cert.ReferenceIdeal.Stages

open Cert.ReferenceIdeal Cert.ReferenceIdeal.Gen Idealize.ShloMosaic Idealize.ShloMosaic.TcCoe Idealize.SL.Sem
open Idealize.ShloMosaic.ValueIdx Cert.RealMatrix

section Terms

variable {F : FTy → Type} [FloatOps F]

/-- A [131, 512] array times a [512, 512] array. -/
def proj (x : FVec F S131x512 .f32) (h : FVec F S512x512 .f32) : FVec F S131x512 .f32 :=
  Host.dotGeneral dot_S131x512_S512x512_S131x512_1_0_0_1_n_n none x h

/-- The graph step: the adjacency array times X. -/
def spread (adj : FVec F S131x131 .f32) (x : FVec F S131x512 .f32) : FVec F S131x512 .f32 :=
  Host.dotGeneral dot_S131x131_S131x512_S131x512_1_0_0_1_n_n none adj x

/-- One hyperedge family's step:  W · (Wᵀ · X). -/
def hyper (w x : FVec F S131x512 .f32) : FVec F S131x512 .f32 :=
  Host.dotGeneral dot_S131x512_S512x512_S131x512_1_0_0_1_n_n none w
    (Host.dotGeneral dot_S512x131_S131x512_S512x512_1_0_0_1_n_n none
      (transpose S512x131 [1, 0] w transposes_S131x512_S512x131_1_0) x)

/-- The hypergraph step: both families' steps added. -/
def hyp (uu ii x : FVec F S131x512 .f32) : FVec F S131x512 .f32 := addf (hyper uu x) (hyper ii x)

/-- One layer. -/
def layer (adj : FVec F S131x131 .f32) (uu ii x : FVec F S131x512 .f32) : FVec F S131x512 .f32 :=
  addf (spread adj x) (hyp uu ii x)

/-- The first result: the literal times the sum of the embeddings and the two layers' outputs, summed from zero. -/
def out (adj : FVec F S131x131 .f32) (u i : FVec F S131x512 .f32) (uh ih : FVec F S512x512 .f32) : FVec F S131x512 .f32 :=
  mulf (broadcastInDim S131x512 ![] bcast_S_S131x512 (constant S_ .f32 0x3C257A78#32))
    (addf (addf (addf (broadcastInDim S131x512 ![] bcast_S_S131x512 (constant S_ .f32 0x00000000#32)) (addf u i))
      (layer adj (proj u uh) (proj i ih) (addf u i)))
      (layer adj (proj u uh) (proj i ih) (layer adj (proj u uh) (proj i ih) (addf u i))))

/-- The second result: the two graph steps, each with a leading unit axis, concatenated. -/
def gnn (adj : FVec F S131x131 .f32) (u i : FVec F S131x512 .f32) (uh ih : FVec F S512x512 .f32) : FVec F S2x131x512 .f32 :=
  concatenate S2x131x512 0
    [⟨S1x131x512, broadcastInDim S1x131x512 ![1, 2] bcast_S131x512_S1x131x512_1_2 (spread adj (addf u i))⟩,
     ⟨S1x131x512, broadcastInDim S1x131x512 ![1, 2] bcast_S131x512_S1x131x512_1_2
        (spread adj (layer adj (proj u uh) (proj i ih) (addf u i)))⟩]
    concatenates_S1x131x512_S1x131x512_S2x131x512_d0

/-- The third result: the two hypergraph steps, stacked the same way. -/
def hyps (adj : FVec F S131x131 .f32) (u i : FVec F S131x512 .f32) (uh ih : FVec F S512x512 .f32) : FVec F S2x131x512 .f32 :=
  concatenate S2x131x512 0
    [⟨S1x131x512, broadcastInDim S1x131x512 ![1, 2] bcast_S131x512_S1x131x512_1_2 (hyp (proj u uh) (proj i ih) (addf u i))⟩,
     ⟨S1x131x512, broadcastInDim S1x131x512 ![1, 2] bcast_S131x512_S1x131x512_1_2
        (hyp (proj u uh) (proj i ih) (layer adj (proj u uh) (proj i ih) (addf u i)))⟩]
    concatenates_S1x131x512_S1x131x512_S2x131x512_d0

variable (m : (ℓ : Loc nD τ sig) → Buf (Elt F) ℓ) (ρ : Dev nD → PrngReg)

/-- The reference's run with its three results at the named stages of the arguments. -/
theorem run : θ_run defs (onTc (τ := τ) (main (F := F))) ⟨m, fun _ => 0, ρ⟩ fun r => ∀ c : Dev nD,
      r.2.mem ((c.tc : Thread nD τ).loc main_v26) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v29) = gnn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v32) = hyps (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2.1.trans rfl, (h c).2.2.2⟩)
    (Cert.ReferenceIdeal.RunP.run m ρ)

end Terms

/-! ## The stages at the exact instance -/

theorem plain_proj : PlainDot.IsPlain dot_S131x512_S512x512_S131x512_1_0_0_1_n_n := ⟨rfl, rfl, rfl, rfl, rfl, rfl⟩
theorem plain_spread : PlainDot.IsPlain dot_S131x131_S131x512_S131x512_1_0_0_1_n_n := ⟨rfl, rfl, rfl, rfl, rfl, rfl⟩
theorem plain_back : PlainDot.IsPlain dot_S512x131_S131x512_S512x512_1_0_0_1_n_n := ⟨rfl, rfl, rfl, rfl, rfl, rfl⟩

variable {adj : FVec Ideal S131x131 .f32} {u i x : FVec Ideal S131x512 .f32} {uh ih : FVec Ideal S512x512 .f32}
variable {a : Matrix (Fin 131) (Fin 131) ℝ} {u' i' x' w' : Matrix (Fin 131) (Fin 512) ℝ} {uh' ih' : Matrix (Fin 512) (Fin 512) ℝ}

theorem holds_proj {w : FVec Ideal S131x512 .f32} {h : FVec Ideal S512x512 .f32} {h' : Matrix (Fin 512) (Fin 512) ℝ}
    (hw : Holds w w') (hh : Holds h h') : Holds (proj w h) (w' * h') :=
  Holds.dotGeneral plain_proj none hw hh

theorem holds_spread (ha : Holds adj a) (hx : Holds x x') : Holds (spread adj x) (a * x') :=
  Holds.dotGeneral plain_spread none ha hx

theorem holds_hyper {w : FVec Ideal S131x512 .f32} (hw : Holds w w') (hx : Holds x x') :
    Holds (hyper w x) (w' * (w'.transpose * x')) :=
  Holds.dotGeneral plain_proj none hw (Holds.dotGeneral plain_back none (hw.transpose _) hx)

theorem holds_hyp {uu ii : FVec Ideal S131x512 .f32} {uu' ii' : Matrix (Fin 131) (Fin 512) ℝ}
    (hu : Holds uu uu') (hi : Holds ii ii') (hx : Holds x x') :
    Holds (hyp uu ii x) (uu' * (uu'.transpose * x') + ii' * (ii'.transpose * x')) :=
  (holds_hyper hu hx).addf (holds_hyper hi hx)

theorem holds_layer {uu ii : FVec Ideal S131x512 .f32} {uu' ii' : Matrix (Fin 131) (Fin 512) ℝ}
    (ha : Holds adj a) (hu : Holds uu uu') (hi : Holds ii ii') (hx : Holds x x') :
    Holds (layer adj uu ii x) (a * x' + (uu' * (uu'.transpose * x') + ii' * (ii'.transpose * x'))) :=
  (holds_spread ha hx).addf (holds_hyp hu hi hx)

/-- Adding the zero array changes nothing: the sum of the layers' outputs starts from zero. -/
theorem holds_zero_add (hx : Holds x x') :
    Holds (addf (broadcastInDim S131x512 ![] bcast_S_S131x512 (constant (F := Ideal) S_ .f32 0x00000000#32)) x) x' := fun p q => by
  rw [addf_apply]
  show Ideal.ofBits .f32 0x00000000#32 + x (ix2 p q) = _
  rw [Ideal.ofBits_zero_f32, zero_add, hx]

/-- The first result, entry by entry: the literal times the entry of  ((E) + L1) + L2. -/
theorem out_apply {l1 l2 : Matrix (Fin 131) (Fin 512) ℝ} (hu : Holds u u') (hi : Holds i i')
    (h1 : Holds (layer adj (proj u uh) (proj i ih) (addf u i)) l1)
    (h2 : Holds (layer adj (proj u uh) (proj i ih) (layer adj (proj u uh) (proj i ih) (addf u i))) l2)
    (p : Fin 131) (q : Fin 512) :
    out adj u i uh ih (ix2 p q) = Ideal.ofBits .f32 0x3C257A78#32 * ((((u' + i') + l1 + l2) p q : ℝ) : EReal) := by
  have h := (((holds_zero_add (hu.addf hi)).addf h1).addf h2) p q
  unfold out
  rw [mulf_apply, h]
  rfl

end Cert.ReferenceIdeal.Stages

end
-- ==== Proof.Bridge.lean ====
/-
  The kernel's results are the reference's.

  When the five inputs hold real matrices a, u, i, uH, iH, put  E = u + i,  U = u · uH,  I = i · iH.  The kernel's
  hypergraph step is  (U · Uᵀ + I · Iᵀ) · X  and the reference's is  U · (Uᵀ · X) + I · (Iᵀ · X);  over the reals
  these are one matrix, since the product is associative and distributes over the sum.  So layer by layer each value
  of the kernel holds the very matrix the reference's stage holds; arrays holding one matrix are equal, the stacked
  results are stacks of equal slabs, and the first result is the same literal times the same real entry.
-/
import proofs.«173434_g20873541059240_cont_8to1_1272_4_alg».proof.Proof.KernelWhole
import proofs.«173434_g20873541059240_cont_8to1_1272_4_alg».proof.Proof.RefStages

noncomputable section

namespace Cert.Bridge

open Idealize.ShloMosaic Idealize.ShloMosaic.ValueIdx Cert.RealMatrix Cert.Stack
open Cert.KernelIdeal.Gen Cert.KernelIdeal.Whole Cert.ReferenceIdeal.Stages

theorem results_eq {adj : FVec Ideal ⟨2, ![131, 131]⟩ .f32} {u i : FVec Ideal ⟨2, ![131, 512]⟩ .f32}
    {uh ih : FVec Ideal ⟨2, ![512, 512]⟩ .f32}
    {a : Matrix (Fin 131) (Fin 131) ℝ} {u' i' : Matrix (Fin 131) (Fin 512) ℝ} {uh' ih' : Matrix (Fin 512) (Fin 512) ℝ}
    (ha : Holds adj a) (hu : Holds u u') (hi : Holds i i') (huh : Holds uh uh') (hih : Holds ih ih') :
    out0_5 (F := Ideal) adj u i uh ih = out (F := Ideal) adj u i uh ih
      ∧ out0_6 (F := Ideal) adj u i uh ih = gnn (F := Ideal) adj u i uh ih
      ∧ out0_7 (F := Ideal) adj u i uh ih = hyps (F := Ideal) adj u i uh ih := by
  -- the kernel's values, the Gram matrix applied rewritten as the two-stage products
  have hg := holds_gram hu hi huh hih
  have kT1 := holds_gnn1 ha hu hi
  have kH1 := holds_hyp1 hu hi hg
  rw [gram_mul] at kH1
  have kL1 := holds_lat1 ha hu hi hg
  rw [gram_mul] at kL1
  have kT2 := holds_gnn2 ha kL1
  have kH2 := holds_hyp2 hg kL1
  rw [gram_mul] at kH2
  have kA1 := holds_acc1 hu hi kL1
  -- the reference's stages
  have rU := holds_proj hu huh
  have rI := holds_proj hi hih
  have rE := hu.addf hi
  have rT1 := holds_spread ha rE
  have rH1 := holds_hyp rU rI rE
  have rL1 := holds_layer ha rU rI rE
  have rT2 := holds_spread ha rL1
  have rH2 := holds_hyp rU rI rL1
  have rL2 := holds_layer ha rU rI rL1
  refine ⟨?_, ?_, ?_⟩
  · rw [out5_eq]
    funext j
    obtain ⟨p, q, rfl⟩ : ∃ (p : Fin 131) (q : Fin 512), j = ix2 p q := ⟨j 0, j 1, eq_ix2 j⟩
    rw [scaled_apply kA1 kT2 kH2 p q, out_apply hu hi rL1 rL2 p q]
  · rw [out6_eq]
    unfold gnn
    rw [concatenate_lead, kT1.ext rT1, kT2.ext rT2]
  · rw [out7_eq]
    unfold hyps
    rw [concatenate_lead, kH1.ext rH1, kH2.ext rH2]

end Cert.Bridge

end
-- ==== Proof.lean ====
/-
  The certificate: a two-layer hypergraph network fused into one kernel, against its layer-by-layer reference.

  Both programs compute, from an adjacency array adj, two embedding arrays u, i and two hyperedge arrays uH, iH,
      E = u + i,   U = u · uH,   I = i · iH,
      T(X) = adj · X,   H(X) = the hypergraph step at X,   L1 = T(E) + H(E),   L2 = T(L1) + H(L1),
  and return  0.0101 · (E + L1 + L2),  the stack of T(E), T(L1)  and the stack of H(E), H(L1).  The kernel forms the
  Gram matrix  G = U · Uᵀ + I · Iᵀ  once and takes  H(X) = G · X;  the reference takes  H(X) = U · (Uᵀ · X) + I · (Iᵀ · X).
  These agree over the real numbers (associativity and distributivity of the matrix product), not on extended reals
  at the infinities: the precondition that every input entry is finite is what makes every value a real matrix.
  The literal 0.0101 is the same word in both programs and is never evaluated.

  The three frames come from the programs' runs; the value claim from: the kernel's one block per window is its whole
  array, every value of either program is a real matrix under the precondition, and the law above.
-/
import proofs.«173434_g20873541059240_cont_8to1_1272_4_alg».proof.Defs
import proofs.«173434_g20873541059240_cont_8to1_1272_4_alg».proof.Proof.Gen.Kernel
import proofs.«173434_g20873541059240_cont_8to1_1272_4_alg».proof.Proof.Gen.Kernel.Skeleton
import proofs.«173434_g20873541059240_cont_8to1_1272_4_alg».proof.Proof.Gen.Kernel.Launch
import proofs.«173434_g20873541059240_cont_8to1_1272_4_alg».proof.Proof.Gen.Kernel.Points
import proofs.«173434_g20873541059240_cont_8to1_1272_4_alg».proof.Proof.Gen.Kernel.Frame
import proofs.«173434_g20873541059240_cont_8to1_1272_4_alg».proof.Proof.Gen.KernelIdeal
import proofs.«173434_g20873541059240_cont_8to1_1272_4_alg».proof.Proof.Gen.KernelIdeal.Skeleton
import proofs.«173434_g20873541059240_cont_8to1_1272_4_alg».proof.Proof.Gen.KernelIdeal.Launch
import proofs.«173434_g20873541059240_cont_8to1_1272_4_alg».proof.Proof.Gen.KernelIdeal.Points
import proofs.«173434_g20873541059240_cont_8to1_1272_4_alg».proof.Proof.Gen.KernelIdeal.Frame
import proofs.«173434_g20873541059240_cont_8to1_1272_4_alg».proof.Proof.Gen.ReferenceIdeal
import proofs.«173434_g20873541059240_cont_8to1_1272_4_alg».proof.Proof.Gen.Pre_finite_inputs
import proofs.«173434_g20873541059240_cont_8to1_1272_4_alg».proof.Proof.Gen.KernelIdeal.Value
import proofs.«173434_g20873541059240_cont_8to1_1272_4_alg».proof.Proof.FiniteInputs
import proofs.«173434_g20873541059240_cont_8to1_1272_4_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Stages.run (F := Ideal) m ρ)

/-- Both runs end with the three results at the reference's stages of the kernel's argument arrays: the kernel's by
    the bridge, once the precondition has made each argument a real matrix; the reference's because its arguments
    are the kernel's. -/
theorem algebraic : Cert.algebraic_KernelIdeal_ReferenceIdeal := by
  intro m ρ m' ρ' hpre hagree
  refine ⟨fun c => Cert.ReferenceIdeal.Stages.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Stages.gnn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Stages.hyps (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    ?_, ?_⟩
  · refine (θ_run Cert.KernelIdeal.defs _ _).mono (fun r h c => ?_) (Cert.KernelIdeal.Whole.run (F := Ideal) m ρ)
    obtain ⟨r0, r1, r2, r3, r4⟩ := Cert.FiniteInputs.entries_real _ _ _ _ _ (hpre c)
    obtain ⟨a, ha⟩ := Cert.RealMatrix.exists_holds _ r0
    obtain ⟨u', hu⟩ := Cert.RealMatrix.exists_holds _ r1
    obtain ⟨i', hi⟩ := Cert.RealMatrix.exists_holds _ r2
    obtain ⟨uh', huh⟩ := Cert.RealMatrix.exists_holds _ r3
    obtain ⟨ih', hih⟩ := Cert.RealMatrix.exists_holds _ r4
    obtain ⟨e5, e6, e7⟩ := Cert.Bridge.results_eq ha hu hi huh hih
    exact ⟨(h c).1.trans e5, (h c).2.1.trans e6, (h c).2.2.1.trans e7, (h c).2.2.2⟩
  · refine (θ_run Cert.ReferenceIdeal.defs _ _).mono (fun r h c => ?_) (Cert.ReferenceIdeal.Stages.run (F := Ideal) m' ρ')
    obtain ⟨g0, g1, g2, g3, g4⟩ := hagree c
    exact ⟨by rw [(h c).1, g0, g1, g2, g3, g4], by rw [(h c).2.1, g0, g1, g2, g3, g4], by rw [(h c).2.2.1, g0, g1, g2, g3, g4], (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
